-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3072 : Shape := ⟨2, ![2048, 3072]⟩
abbrev S4096 : Shape := ⟨1, ![4096]⟩
abbrev S4096x100 : Shape := ⟨2, ![4096, 100]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x100 : S_.BroadcastsInDim S4096x100 (![] : Fin 0 → Fin S4096x100.rank)
  reducesTo_S4096x100_S_d0_1 : S4096x100.ReducesTo [0, 1] S_

variable [Facts]

def fn_part1 {F : FTy → Type} [FloatOps F] (main_arg4 : FVec F S2048x3072 .f32) (main_arg5 : FVec F S4096 .f32) (main_arg6 : FVec F S4096x100 .f32) (main_v13 : IVec S_ 1) (main_v16 : IVec S2048x3072 1) : IVec S_ 1 :=
  let main_c_5 : IVec S_ 1 := constantI S_ 1 1#1
  let main_v17 : IVec S_ 1 := (fun x v => Host.reduce IntOp.andi x v reducesTo_S2048x3072_S_d0_1 h_S_) main_v16 main_c_5
  let main_v18 : IVec S_ 1 := andi main_v13 main_v17
  let main_v19 : FVec F S2048x3072 .f32 := Host.absf main_arg4
  let main_cst_6 : FVec F S_ .f32 := constant S_ .f32 0x7F800000#32
  let main_v20 : FVec F S2048x3072 .f32 := broadcastInDim S2048x3072 ![] bcast_S_S2048x3072 main_cst_6
  let main_v21 : IVec S2048x3072 1 := cmpf .olt main_v19 main_v20
  let main_c_7 : IVec S_ 1 := constantI S_ 1 1#1
  let main_v22 : IVec S_ 1 := (fun x v => Host.reduce IntOp.andi x v reducesTo_S2048x3072_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x100 .f32 := Host.absf main_arg6
  let main_cst_10 : FVec F S_ .f32 := constant S_ .f32 0x7F800000#32
  let main_v30 : FVec F S4096x100 .f32 := broadcastInDim S4096x100 ![] bcast_S_S4096x100 main_cst_10
  let main_v31 : IVec S4096x100 1 := cmpf .olt main_v29 main_v30
  let main_c_11 : IVec S_ 1 := constantI S_ 1 1#1
  let main_v32 : IVec S_ 1 := (fun x v => Host.reduce IntOp.andi x v reducesTo_S4096x100_S_d0_1 h_S_) main_v31 main_c_11
  let main_v33 : IVec S_ 1 := andi main_v28 main_v32
  main_v33

def fn {F : FTy → Type} [FloatOps F] (main_arg0 : FVec F S2048x3072 .f32) (main_arg1 : FVec F S2048x3072 .f32) (main_arg2 : FVec F S2048x3072 .f32) (main_arg3 : FVec F S2048x3072 .f32) (main_arg4 : FVec F S2048x3072 .f32) (main_arg5 : FVec F S4096 .f32) (main_arg6 : FVec F S4096x100 .f32) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S2048x3072 .f32 := Host.absf main_arg1
  let main_cst_0 : FVec F S_ .f32 := constant S_ .f32 0x7F800000#32
  let main_v5 : FVec F S2048x3072 .f32 := broadcastInDim S2048x3072 ![] bcast_S_S2048x3072 main_cst_0
  let main_v6 : IVec S2048x3072 1 := cmpf .olt main_v4 main_v5
  let main_c_1 : IVec S_ 1 := constantI S_ 1 1#1
  let main_v7 : IVec S_ 1 := (fun x v => Host.reduce IntOp.andi x v reducesTo_S2048x3072_S_d0_1 h_S_) main_v6 main_c_1
  let main_v8 : IVec S_ 1 := andi main_v3 main_v7
  let main_v9 : FVec F S2048x3072 .f32 := Host.absf main_arg2
  let main_cst_2 : FVec F S_ .f32 := constant S_ .f32 0x7F800000#32
  let main_v10 : FVec F S2048x3072 .f32 := broadcastInDim S2048x3072 ![] bcast_S_S2048x3072 main_cst_2
  let main_v11 : IVec S2048x3072 1 := cmpf .olt main_v9 main_v10
  let main_c_3 : IVec S_ 1 := constantI S_ 1 1#1
  let main_v12 : IVec S_ 1 := (fun x v => Host.reduce IntOp.andi x v reducesTo_S2048x3072_S_d0_1 h_S_) main_v11 main_c_3
  let main_v13 : IVec S_ 1 := andi main_v8 main_v12
  let main_v14 : FVec F S2048x3072 .f32 := Host.absf main_arg3
  let main_cst_4 : FVec F S_ .f32 := constant S_ .f32 0x7F800000#32
  let main_v15 : FVec F S2048x3072 .f32 := broadcastInDim S2048x3072 ![] bcast_S_S2048x3072 main_cst_4
  let main_v16 : IVec S2048x3072 1 := cmpf .olt main_v14 main_v15
  fn_part1 (F := F) main_arg4 main_arg5 main_arg6 main_v13 main_v16
-- ==== Kernel.lean ====
abbrev S2048x3072 : Shape := ⟨2, ![2048, 3072]⟩
abbrev S4096 : Shape := ⟨1, ![4096]⟩
abbrev S4096x100 : Shape := ⟨2, ![4096, 100]⟩
abbrev S2048x2048 : Shape := ⟨2, ![2048, 2048]⟩
abbrev S256x3072 : Shape := ⟨2, ![256, 3072]⟩
abbrev S256x256 : Shape := ⟨2, ![256, 256]⟩
abbrev S3072x256 : Shape := ⟨2, ![3072, 256]⟩
abbrev S2048x4096 : Shape := ⟨2, ![2048, 4096]⟩
abbrev S1x4096 : Shape := ⟨2, ![1, 4096]⟩
abbrev S2048x100 : Shape := ⟨2, ![2048, 100]⟩
abbrev S256x4096 : Shape := ⟨2, ![256, 4096]⟩
abbrev S256x100 : Shape := ⟨2, ![256, 100]⟩

abbrev nBuf : Space → Nat
  | .hbm => 12
  | .vmem => 22
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S4096, .f32⟩
  | .hbm, ⟨6, _⟩ => ⟨S4096x100, .f32⟩
  | .hbm, ⟨7, _⟩ => ⟨S2048x2048, .f32⟩
  | .hbm, ⟨8, _⟩ => ⟨S2048x2048, .f32⟩
  | .hbm, ⟨9, _⟩ => ⟨S2048x4096, .f32⟩
  | .hbm, ⟨10, _⟩ => ⟨S1x4096, .f32⟩
  | .hbm, ⟨11, _⟩ => ⟨S2048x100, .f32⟩
  | .local _ .vmem, ⟨0, _⟩ => ⟨S256x3072, .f32⟩
  | .local _ .vmem, ⟨1, _⟩ => ⟨S256x3072, .f32⟩
  | .local _ .vmem, ⟨2, _⟩ => ⟨S256x3072, .f32⟩
  | .local _ .vmem, ⟨3, _⟩ => ⟨S256x3072, .f32⟩
  | .local _ .vmem, ⟨4, _⟩ => ⟨S256x3072, .f32⟩
  | .local _ .vmem, ⟨5, _⟩ => ⟨S256x3072, .f32⟩
  | .local _ .vmem, ⟨6, _⟩ => ⟨S256x256, .f32⟩
  | .local _ .vmem, ⟨7, _⟩ => ⟨S256x256, .f32⟩
  | .local _ .vmem, ⟨8, _⟩ => ⟨S256x3072, .f32⟩
  | .local _ .vmem, ⟨9, _⟩ => ⟨S256x3072, .f32⟩
  | .local _ .vmem, ⟨10, _⟩ => ⟨S256x3072, .f32⟩
  | .local _ .vmem, ⟨11, _⟩ => ⟨S256x3072, .f32⟩
  | .local _ .vmem, ⟨12, _⟩ => ⟨S256x3072, .f32⟩
  | .local _ .vmem, ⟨13, _⟩ => ⟨S256x3072, .f32⟩
  | .local _ .vmem, ⟨14, _⟩ => ⟨S256x256, .f32⟩
  | .local _ .vmem, ⟨15, _⟩ => ⟨S256x256, .f32⟩
  | .local _ .vmem, ⟨16, _⟩ => ⟨S256x4096, .f32⟩
  | .local _ .vmem, ⟨17, _⟩ => ⟨S256x4096, .f32⟩
  | .local _ .vmem, ⟨18, _⟩ => ⟨S1x4096, .f32⟩
  | .local _ .vmem, ⟨19, _⟩ => ⟨S4096x100, .f32⟩
  | .local _ .vmem, ⟨20, _⟩ => ⟨S256x100, .f32⟩
  | .local _ .vmem, ⟨21, _⟩ => ⟨S256x100, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x3072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x100 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S256x3072_S256x3072_0_0 : ∀ a, (![0, 0] : Fin 2 → Nat) a + S256x3072.size a ≤ S256x3072.size a
  h_S256x3072 : 0 < S256x3072.numel
  bitsLt_bf16_f32 : FTy.bits .bf16 < FTy.bits .f32
  transposes_S256x3072_p1_0_S3072x256 : S256x3072.Transposes [1, 0] S3072x256
  inb_S256x256_S256x256_0_0 : ∀ a, (![0, 0] : Fin 2 → Nat) a + S256x256.size a ≤ S256x256.size a
  h_S256x256 : 0 < S256x256.numel
  concatenates_S2048x2048_S2048x2048_S2048x4096_d1 : Shape.Concatenates [S2048x2048, S2048x2048] S2048x4096 1
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x100_S4096x100_0_0 : ∀ a, (![0, 0] : Fin 2 → Nat) a + S4096x100.size a ≤ S4096x100.size a
  h_S4096x100 : 0 < S4096x100.numel
  inb_S256x100_S256x100_0_0 : ∀ a, (![0, 0] : Fin 2 → Nat) a + S256x100.size a ≤ S256x100.size a
  h_S256x100 : 0 < S256x100.numel
  dot_S256x3072_S3072x256_S256x256_1_0_0_1_n_n_wf : DotDims.WF S256x3072 S3072x256 S256x256 [1] [0] [0] [1] [] []
  dot_S256x4096_S4096x100_S256x100_1_0_0_1_n_n_wf : DotDims.WF S256x4096 S4096x100 S256x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S2048x3072.size a
  hwx0_0 : ∀ i : grid0.Coords, EltTy.bits .f32 = 32 ∨ (Rect.block (s := S2048x3072) S256x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3072.size a ≤ S2048x3072.size a
  hwx0_1 : ∀ i : grid0.Coords, EltTy.bits .f32 = 32 ∨ (Rect.block (s := S2048x3072) S256x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S2048x3072.size a
  hwx0_2 : ∀ i : grid0.Coords, EltTy.bits .f32 = 32 ∨ (Rect.block (s := S2048x3072) S256x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S2048x2048.size a
  hwx0_3 : ∀ i : grid0.Coords, EltTy.bits .f32 = 32 ∨ (Rect.block (s := S2048x2048) S256x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3072.size a ≤ S2048x3072.size a
  hwx1_0 : ∀ i : grid1.Coords, EltTy.bits .f32 = 32 ∨ (Rect.block (s := S2048x3072) S256x3072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x3072.size a ≤ S2048x3072.size a
  hwx1_1 : ∀ i : grid1.Coords, EltTy.bits .f32 = 32 ∨ (Rect.block (s := S2048x3072) S256x3072.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x3072.size a ≤ S2048x3072.size a
  hwx1_2 : ∀ i : grid1.Coords, EltTy.bits .f32 = 32 ∨ (Rect.block (s := S2048x3072) S256x3072.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S2048x2048.size a
  hwx1_3 : ∀ i : grid1.Coords, EltTy.bits .f32 = 32 ∨ (Rect.block (s := S2048x2048) S256x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S2048x4096.size a
  hwx2_0 : ∀ i : grid2.Coords, EltTy.bits .f32 = 32 ∨ (Rect.block (s := S2048x4096) S256x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4096.size a ≤ S1x4096.size a
  hwx2_1 : ∀ i : grid2.Coords, EltTy.bits .f32 = 32 ∨ (Rect.block (s := S1x4096) S1x4096.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x100.size a ≤ S4096x100.size a
  hwx2_2 : ∀ i : grid2.Coords, EltTy.bits .f32 = 32 ∨ (Rect.block (s := S4096x100) S4096x100.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x100.size a ≤ S2048x100.size a
  hwx2_3 : ∀ i : grid2.Coords, EltTy.bits .f32 = 32 ∨ (Rect.block (s := S2048x100) S256x100.size (cc2_transform_3 i) (hinb2_3 i)).WholeWords (EltTy.packing .f32)

variable [Facts₀]

def dot_S256x3072_S3072x256_S256x256_1_0_0_1_n_n : DotDims S256x3072 S3072x256 S256x256 where
  lhsContracting := [1]
  rhsContracting := [0]
  lhsNonContracting := [0]
  rhsNonContracting := [1]
  lhsBatch := []
  rhsBatch := []
  wf := dot_S256x3072_S3072x256_S256x256_1_0_0_1_n_n_wf
def dot_S256x4096_S4096x100_S256x100_1_0_0_1_n_n : DotDims S256x4096 S4096x100 S256x100 where
  lhsContracting := [1]
  rhsContracting := [0]
  lhsNonContracting := [0]
  rhsNonContracting := [1]
  lhsBatch := []
  rhsBatch := []
  wf := dot_S256x4096_S4096x100_S256x100_1_0_0_1_n_n_wf

abbrev win0_0 : Pipeline.Window sig grid0 :=
  Pipeline.Window.ofSpec (Memref.whole main_arg0) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x3072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S256x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x3072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x3072.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S4096x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S256x100.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x3072 : Shape := ⟨2, ![2048, 3072]⟩
abbrev S4096 : Shape := ⟨1, ![4096]⟩
abbrev S4096x100 : Shape := ⟨2, ![4096, 100]⟩
abbrev S_ : Shape := ⟨0, ![]⟩
abbrev S2048x6144 : Shape := ⟨2, ![2048, 6144]⟩
abbrev S4096x6144 : Shape := ⟨2, ![4096, 6144]⟩
abbrev S6144x4096 : Shape := ⟨2, ![6144, 4096]⟩
abbrev S2048x4096 : Shape := ⟨2, ![2048, 4096]⟩
abbrev S1x4096 : Shape := ⟨2, ![1, 4096]⟩
abbrev S2048x100 : Shape := ⟨2, ![2048, 100]⟩

abbrev nBuf : Space → Nat
  | .hbm => 97
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S4096, .f32⟩
  | .hbm, ⟨6, _⟩ => ⟨S4096x100, .f32⟩
  | .hbm, ⟨7, _⟩ => ⟨S2048x3072, .f32⟩
  | .hbm, ⟨8, _⟩ => ⟨S2048x3072, .f32⟩
  | .hbm, ⟨9, _⟩ => ⟨S_, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048x3072, .f32⟩
  | .hbm, ⟨19, _⟩ => ⟨S2048x3072, .f32⟩
  | .hbm, ⟨20, _⟩ => ⟨S_, .f32⟩
  | .hbm, ⟨21, _⟩ => ⟨S2048x3072, .f32⟩
  | .hbm, ⟨22, _⟩ => ⟨S2048x3072, .f32⟩
  | .hbm, ⟨23, _⟩ => ⟨S2048x3072, .f32⟩
  | .hbm, ⟨24, _⟩ => ⟨S2048x3072, .f32⟩
  | .hbm, ⟨25, _⟩ => ⟨S_, .f32⟩
  | .hbm, ⟨26, _⟩ => ⟨S2048x3072, .f32⟩
  | .hbm, ⟨27, _⟩ => ⟨S2048x3072, .f32⟩
  | .hbm, ⟨28, _⟩ => ⟨S_, .f32⟩
  | .hbm, ⟨29, _⟩ => ⟨S2048x3072, .f32⟩
  | .hbm, ⟨30, _⟩ => ⟨S2048x3072, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048x3072, .f32⟩
  | .hbm, ⟨35, _⟩ => ⟨S2048x3072, .f32⟩
  | .hbm, ⟨36, _⟩ => ⟨S_, .f32⟩
  | .hbm, ⟨37, _⟩ => ⟨S2048x3072, .f32⟩
  | .hbm, ⟨38, _⟩ => ⟨S2048x3072, .f32⟩
  | .hbm, ⟨39, _⟩ => ⟨S2048x3072, .f32⟩
  | .hbm, ⟨40, _⟩ => ⟨S2048x3072, .f32⟩
  | .hbm, ⟨41, _⟩ => ⟨S_, .f32⟩
  | .hbm, ⟨42, _⟩ => ⟨S2048x3072, .f32⟩
  | .hbm, ⟨43, _⟩ => ⟨S2048x3072, .f32⟩
  | .hbm, ⟨44, _⟩ => ⟨S_, .f32⟩
  | .hbm, ⟨45, _⟩ => ⟨S2048x3072, .f32⟩
  | .hbm, ⟨46, _⟩ => ⟨S2048x3072, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2048x3072, .f32⟩
  | .hbm, ⟨51, _⟩ => ⟨S2048x3072, .f32⟩
  | .hbm, ⟨52, _⟩ => ⟨S_, .f32⟩
  | .hbm, ⟨53, _⟩ => ⟨S2048x3072, .f32⟩
  | .hbm, ⟨54, _⟩ => ⟨S2048x3072, .f32⟩
  | .hbm, ⟨55, _⟩ => ⟨S2048x3072, .f32⟩
  | .hbm, ⟨56, _⟩ => ⟨S2048x3072, .f32⟩
  | .hbm, ⟨57, _⟩ => ⟨S_, .f32⟩
  | .hbm, ⟨58, _⟩ => ⟨S2048x3072, .f32⟩
  | .hbm, ⟨59, _⟩ => ⟨S2048x3072, .f32⟩
  | .hbm, ⟨60, _⟩ => ⟨S_, .f32⟩
  | .hbm, ⟨61, _⟩ => ⟨S2048x3072, .f32⟩
  | .hbm, ⟨62, _⟩ => ⟨S2048x3072, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S2048x3072, .f32⟩
  | .hbm, ⟨67, _⟩ => ⟨S2048x3072, .f32⟩
  | .hbm, ⟨68, _⟩ => ⟨S_, .f32⟩
  | .hbm, ⟨69, _⟩ => ⟨S2048x3072, .f32⟩
  | .hbm, ⟨70, _⟩ => ⟨S2048x3072, .f32⟩
  | .hbm, ⟨71, _⟩ => ⟨S_, .f32⟩
  | .hbm, ⟨72, _⟩ => ⟨S2048x3072, .f32⟩
  | .hbm, ⟨73, _⟩ => ⟨S2048x3072, .f32⟩
  | .hbm, ⟨74, _⟩ => ⟨S2048x6144, .f32⟩
  | .hbm, ⟨75, _⟩ => ⟨S2048x6144, .f32⟩
  | .hbm, ⟨76, _⟩ => ⟨S2048x6144, .f32⟩
  | .hbm, ⟨77, _⟩ => ⟨S4096x6144, .f32⟩
  | .hbm, ⟨78, _⟩ => ⟨S6144x4096, .f32⟩
  | .hbm, ⟨79, _⟩ => ⟨S2048x4096, .f32⟩
  | .hbm, ⟨80, _⟩ => ⟨S_, .f32⟩
  | .hbm, ⟨81, _⟩ => ⟨S2048x4096, .f32⟩
  | .hbm, ⟨82, _⟩ => ⟨S2048x4096, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S2048x4096, .f32⟩
  | .hbm, ⟨87, _⟩ => ⟨S2048x4096, .f32⟩
  | .hbm, ⟨88, _⟩ => ⟨S_, .f32⟩
  | .hbm, ⟨89, _⟩ => ⟨S2048x4096, .f32⟩
  | .hbm, ⟨90, _⟩ => ⟨S2048x4096, .f32⟩
  | .hbm, ⟨91, _⟩ => ⟨S2048x4096, .f32⟩
  | .hbm, ⟨92, _⟩ => ⟨S2048x4096, .f32⟩
  | .hbm, ⟨93, _⟩ => ⟨S1x4096, .f32⟩
  | .hbm, ⟨94, _⟩ => ⟨S2048x4096, .f32⟩
  | .hbm, ⟨95, _⟩ => ⟨S2048x4096, .f32⟩
  | .hbm, ⟨96, _⟩ => ⟨S2048x100, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_cst_4 : Ref sig .tc := ⟨.hbm, 28, rfl⟩
abbrev main_v11 : Ref sig .tc := ⟨.hbm, 29, rfl⟩
abbrev main_v12 : Ref sig .tc := ⟨.hbm, 30, rfl⟩
abbrev main_cst_5 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_7 : Ref sig .tc := ⟨.hbm, 41, rfl⟩
abbrev main_v16 : Ref sig .tc := ⟨.hbm, 42, rfl⟩
abbrev main_v17 : Ref sig .tc := ⟨.hbm, 43, rfl⟩
abbrev main_cst_8 : Ref sig .tc := ⟨.hbm, 44, rfl⟩
abbrev main_v18 : Ref sig .tc := ⟨.hbm, 45, rfl⟩
abbrev main_v19 : Ref sig .tc := ⟨.hbm, 46, rfl⟩
abbrev main_cst_9 : Ref sig .tc := ⟨.hbm, 47, rfl⟩
abbrev main_cst_10 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_11 : Ref sig .tc := ⟨.hbm, 57, rfl⟩
abbrev main_v23 : Ref sig .tc := ⟨.hbm, 58, rfl⟩
abbrev main_v24 : Ref sig .tc := ⟨.hbm, 59, rfl⟩
abbrev main_cst_12 : Ref sig .tc := ⟨.hbm, 60, rfl⟩
abbrev main_v25 : Ref sig .tc := ⟨.hbm, 61, rfl⟩
abbrev main_v26 : Ref sig .tc := ⟨.hbm, 62, rfl⟩
abbrev main_cst_13 : Ref sig .tc := ⟨.hbm, 63, rfl⟩
abbrev main_cst_14 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v27 : Ref sig .tc := ⟨.hbm, 70, rfl⟩
abbrev main_cst_15 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_16 : Ref sig .tc := ⟨.hbm, 80, rfl⟩
abbrev main_v36 : Ref sig .tc := ⟨.hbm, 81, rfl⟩
abbrev main_v37 : Ref sig .tc := ⟨.hbm, 82, rfl⟩
abbrev main_cst_17 : Ref sig .tc := ⟨.hbm, 83, rfl⟩
abbrev main_cst_18 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩

abbrev nD : Nat := 1
abbrev τ : Topo := Topo.v7x

variable {F : FTy → Type} [FloatOps F]

class Facts₀ : Prop where
  bcast_S_S2048x3072 : S_.BroadcastsInDim S2048x3072 (![] : Fin 0 → Fin S2048x3072.rank)
  concatenates_S2048x3072_S2048x3072_S2048x6144_d1 : Shape.Concatenates [S2048x3072, S2048x3072] S2048x6144 1
  concatenates_S2048x6144_S2048x6144_S4096x6144_d0 : Shape.Concatenates [S2048x6144, S2048x6144] S4096x6144 0
  transposes_S4096x6144_S6144x4096_1_0 : S4096x6144.Transposes [1, 0] S6144x4096
  bcast_S_S2048x4096 : S_.BroadcastsInDim S2048x4096 (![] : Fin 0 → Fin S2048x4096.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x6144_S6144x4096_S2048x4096_1_0_0_1_n_n_wf : DotDims.WF S2048x6144 S6144x4096 S2048x4096 [1] [0] [0] [1] [] []
  dot_S2048x4096_S4096x100_S2048x100_1_0_0_1_n_n_wf : DotDims.WF S2048x4096 S4096x100 S2048x100 [1] [0] [0] [1] [] []

variable [Facts₀]

def dot_S2048x6144_S6144x4096_S2048x4096_1_0_0_1_n_n : DotDims S2048x6144 S6144x4096 S2048x4096 where
  lhsContracting := [1]
  rhsContracting := [0]
  lhsNonContracting := [0]
  rhsNonContracting := [1]
  lhsBatch := []
  rhsBatch := []
  wf := dot_S2048x6144_S6144x4096_S2048x4096_1_0_0_1_n_n_wf
def dot_S2048x4096_S4096x100_S2048x100_1_0_0_1_n_n : DotDims S2048x4096 S4096x100 S2048x100 where
  lhsContracting := [1]
  rhsContracting := [0]
  lhsNonContracting := [0]
  rhsNonContracting := [1]
  lhsBatch := []
  rhsBatch := []
  wf := dot_S2048x4096_S4096x100_S2048x100_1_0_0_1_n_n_wf

class Facts : Prop extends Facts₀ where

variable [Facts]
-- ==== Proof.Spec.lean ====
/-
  What the two programs compute, as functions of the seven argument arrays over the extended reals.

  A feature value `x[b,f]` and two banks of automaton states `p[h,f]`, `pinv[h,f]` give, for the batch row `b`
  and the clause `h`, the score
      (Σ_f (1 − x[b,f]) · g(p[h,f])  +  Σ_f x[b,f] · g(pinv[h,f])) · s ,
  where `g v = min 1 (max 0 (logistic v))` and `s` is the float the programs both spell `4/3072`; the clause output
  is `exp (0 − min 10 (max 0 score))`. The 4096 clauses are the 2048 positive ones followed by the 2048 negative
  ones, and the class logits are `Σ_c (clause[b,c] + bias[c]) · voting[c,k]`.
  Every float literal stays the binary word both programs print, so none is ever evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `a` rows and `b` columns. -/
abbrev Mat (a b : Nat) : Type := FVec Ideal (⟨2, ![a, b]⟩ : Shape) .f32
/-- A vector of extended reals of length `a`. -/
abbrev Row (a : Nat) : Type := FVec Ideal (⟨1, ![a]⟩ : Shape) .f32

/-- The words of 1, 0, 10 and of the scale 4/3072 rounded to f32, read at the extended reals. -/
def one : EReal := Ideal.ofBits .f32 0x3F800000#32
def zero : EReal := Ideal.ofBits .f32 0x00000000#32
def ten : EReal := Ideal.ofBits .f32 0x41200000#32
def scale : EReal := Ideal.ofBits .f32 0x3AAAAAAB#32

/-- The inclusion probability of a literal: the logistic of the automaton state, clipped to [0, 1]. -/
def gate (v : EReal) : EReal := min one (max zero (Ideal.logistic v))

/-- Row `b` against clause `h`: the negated features against the bank `p` plus the features against the bank `pinv`. -/
def dotHalf (x p pinv : Mat 2048 3072) (b h : Fin 2048) : EReal :=
  (∑ k : Fin 3072, (one - x (ix2 b k)) * gate (p (ix2 h k))) + ∑ k : Fin 3072, x (ix2 b k) * gate (pinv (ix2 h k))

/-- From the summed products to the clause output: scale, clip to [0, 10], negate, exponentiate. -/
def fuzz (d : EReal) : EReal := Ideal.exp (zero - min ten (max zero (d * scale)))

/-- One half (positive or negative) of the clause outputs. -/
def clauseHalf (x p pinv : Mat 2048 3072) : Mat 2048 2048 := fun i => fuzz (dotHalf x p pinv (i 0) (i 1))

theorem clauseHalf_ix2 (x p pinv : Mat 2048 3072) (b h : Fin 2048) :
    clauseHalf x p pinv (ix2 b h) = fuzz (dotHalf x p pinv b h) := rfl

/-- All 4096 clause outputs: columns below 2048 are the positive half, the others the negative half. -/
def clauses (x pp pn ppi pni : Mat 2048 3072) : Mat 2048 4096 := fun i =>
  if h : (i 1).val < 2048 then clauseHalf x pp ppi (ix2 (i 0) ⟨(i 1).val, h⟩)
  else clauseHalf x pn pni (ix2 (i 0) ⟨(i 1).val - 2048, by have h4 : (i 1).val < 4096 := (i 1).isLt; omega⟩)

/-- The class logits of clause outputs `cl`: bias added clause by clause, then the vote matrix. -/
def logits (cl : Mat 2048 4096) (bias : Row 4096) (v : Mat 4096 100) : Mat 2048 100 := fun i =>
  ∑ c : Fin 4096, (cl (ix2 (i 0) c) + bias (ix1 c)) * v (ix2 c (i 1))

theorem logits_ix2 (cl : Mat 2048 4096) (bias : Row 4096) (v : Mat 4096 100) (b : Fin 2048) (k : Fin 100) :
    logits cl bias v (ix2 b k) = ∑ c : Fin 4096, (cl (ix2 b c) + bias (ix1 c)) * v (ix2 c k) := rfl

end Cert.Spec

end
-- ==== Proof.ClauseRegion.lean ====
/-
  The two clause regions, from their blocks to their arrays.

  Each region walks an 8×8 grid of points. At the point with block row I and block column J its body reads a
  256×3072 block of the features x (rows 256·I …), a 256×3072 block of each of two banks of automaton states p and
  pinv (clauses 256·J …), and leaves in a 256×256 block, at the entry (r, q),
      exp (0 − min 10 (max 0 ((Σ_k (1 − x[r,k]) · g(p[q,k]) + Σ_k x[r,k] · g(pinv[q,k])) · s))),
  g v = min 1 (max 0 (logistic v)): the two sums are its two matrix products, each of a block with a transposed block,
  accumulated from zero, and narrowing to the shorter float type is the identity at the extended reals.

  That entry is the specification's clause output at batch row 256·I + r and clause 256·J + q, because a block's entry
  (r, k) is the array's entry (256·I + r, k): so what a point writes back is its block of the specification's
  2048×2048 array. The 64 blocks cover that array (the index (b, h) lies in the block of the point with I = b / 256,
  J = h / 256), so after the region the output array is the specification's clause half of the three arrays the
  region's input windows read.
-/
import proofs.«141273_j30227979829789_1_alg».proof.Proof.Gen.KernelIdeal.Frame
import proofs.«141273_j30227979829789_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.ClauseValue

open Cert.KernelIdeal Cert.KernelIdeal.Gen Idealize.ShloMosaic Idealize.ShloMosaic.TcCoe Idealize.ShloMosaic.ValueIdx Idealize.SL.Sem

/-! ## The body's arithmetic at one entry of its 256×256 block -/

theorem lhs_axis0 (i : S256x256.Idx) (q : dot_S256x3072_S3072x256_S256x256_1_0_0_1_n_n.contr.Idx) :
    (dot_S256x3072_S3072x256_S256x256_1_0_0_1_n_n.lhsIdx i q 0).val = (i 0).val := by
  unfold DotDims.lhsIdx
  rw [dif_neg (show ¬(0 : Fin S256x3072.rank) ∈ dot_S256x3072_S3072x256_S256x256_1_0_0_1_n_n.lhsBatch by decide), dif_pos (show (0 : Fin S256x3072.rank) ∈ dot_S256x3072_S3072x256_S256x256_1_0_0_1_n_n.lhsNonContracting by decide)]
  rfl
theorem lhs_axis1 (i : S256x256.Idx) (q : dot_S256x3072_S3072x256_S256x256_1_0_0_1_n_n.contr.Idx) :
    (dot_S256x3072_S3072x256_S256x256_1_0_0_1_n_n.lhsIdx i q 1).val = (q ⟨0, by decide⟩).val :=
  dot_S256x3072_S3072x256_S256x256_1_0_0_1_n_n.lhsIdx_val_of_single rfl i q
theorem rhs_axis0 (i : S256x256.Idx) (q : dot_S256x3072_S3072x256_S256x256_1_0_0_1_n_n.contr.Idx) :
    (dot_S256x3072_S3072x256_S256x256_1_0_0_1_n_n.rhsIdx i q 0).val = (q ⟨0, by decide⟩).val :=
  dot_S256x3072_S3072x256_S256x256_1_0_0_1_n_n.rhsIdx_val_of_single rfl i q
theorem rhs_axis1 (i : S256x256.Idx) (q : dot_S256x3072_S3072x256_S256x256_1_0_0_1_n_n.contr.Idx) :
    (dot_S256x3072_S3072x256_S256x256_1_0_0_1_n_n.rhsIdx i q 1).val = (i 1).val := by
  unfold DotDims.rhsIdx
  rw [dif_neg (show ¬(1 : Fin S3072x256.rank) ∈ dot_S256x3072_S3072x256_S256x256_1_0_0_1_n_n.rhsBatch by decide), dif_pos (show (1 : Fin S3072x256.rank) ∈ dot_S256x3072_S3072x256_S256x256_1_0_0_1_n_n.rhsNonContracting by decide)]
  rfl

/-- A product of a 256×3072 block with a 3072×256 block, accumulated from zero, at the entry (r, q): the sum over the
    3072 features of row r of the left block against column q of the right block. -/
theorem matmul_at {φ₁ φ₂ : FTy} (l : FVec Ideal S256x3072 φ₁) (w : FVec Ideal S3072x256 φ₂) (r q : Fin 256) :
    matmul dot_S256x3072_S3072x256_S256x256_1_0_0_1_n_n none l w (constant (F := Ideal) S256x256 .f32 0x00000000#32) (ix2 r q)
      = ∑ k : Fin 3072, l (ix2 r k) * w (ix2 k q) := by
  simp only [matmul]
  rw [Ideal.matmul_constant_zero_apply, ← Equiv.sum_comp (contrEquiv1 dot_S256x3072_S3072x256_S256x256_1_0_0_1_n_n 3072 rfl rfl).symm]
  refine Finset.sum_congr rfl fun k _ => ?_
  have hk := contrEquiv1_symm_val dot_S256x3072_S3072x256_S256x256_1_0_0_1_n_n 3072 rfl rfl k
  have el : dot_S256x3072_S3072x256_S256x256_1_0_0_1_n_n.lhsIdx (ix2 r q) ((contrEquiv1 dot_S256x3072_S3072x256_S256x256_1_0_0_1_n_n 3072 rfl rfl).symm k) = ix2 r k := funext fun a => Fin.ext (by
    match a with
    | ⟨0, _⟩ => exact lhs_axis0 _ _
    | ⟨1, _⟩ => exact (lhs_axis1 _ _).trans hk)
  have er : dot_S256x3072_S3072x256_S256x256_1_0_0_1_n_n.rhsIdx (ix2 r q) ((contrEquiv1 dot_S256x3072_S3072x256_S256x256_1_0_0_1_n_n 3072 rfl rfl).symm k) = ix2 k q := funext fun a => Fin.ext (by
    match a with
    | ⟨0, _⟩ => exact (rhs_axis0 _ _).trans hk
    | ⟨1, _⟩ => exact rhs_axis1 _ _)
  rw [el, er]

/-- A 256×3072 block transposed reads, at (k, q), the block at (q, k). -/
theorem transpose_at {α : Type} (x : S256x3072.Idx → α) (k : Fin 3072) (q : Fin 256) :
    transpose S3072x256 [1, 0] x transposes_S256x3072_p1_0_S3072x256 (ix2 k q) = x (ix2 q k) :=
  transpose_ix2_apply x _ k q

/-- The body's result at the entry (r, q) of its block, from its three loaded blocks: the negated features of row r
    against the clipped inclusion probabilities of row q of the first bank, plus the features against those of the
    second bank, then scaled, clipped to [0, 10], negated and exponentiated. -/
theorem payload_at (x0 x1 x2 : Vec Ideal S256x3072 .f32) (r q : Fin 256) :
    k0_pay1 x0 x1 x2 (ix2 r q) = Cert.Spec.fuzz ((∑ k : Fin 3072, (Cert.Spec.one - x0 (ix2 r k)) * Cert.Spec.gate (x1 (ix2 q k)))
      + ∑ k : Fin 3072, x0 (ix2 r k) * Cert.Spec.gate (x2 (ix2 q k))) := by
  unfold k0_pay1
  show Ideal.exp (_ - min _ (max _ ((matmul _ none _ _ _ (ix2 r q) + matmul _ none _ _ _ (ix2 r q)) * _))) = _
  rw [matmul_at, matmul_at]
  refine congrArg Ideal.exp (congrArg (fun z : EReal => Cert.Spec.zero - min Cert.Spec.ten (max Cert.Spec.zero (z * Cert.Spec.scale))) ?_)
  refine congrArg₂ (· + ·) (Finset.sum_congr rfl fun k _ => ?_) (Finset.sum_congr rfl fun k _ => ?_)
  · exact congrArg (fun z : EReal => (Cert.Spec.one - x0 (ix2 r k)) * z) (transpose_at _ k q)
  · exact congrArg (fun z : EReal => x0 (ix2 r k) * z) (transpose_at _ k q)

variable (V : (c : Dev nD) → (b : Ref sig .tc) → Buf (Elt Ideal) ((c : Thread nD τ).loc b))

/-- The zero offsets of a whole-block access, however spelt. -/
theorem zero_offsets : (![0, 0] : Fin 2 → Nat) = fun _ => 0 := funext fun a => match a with | ⟨0, _⟩ => rfl | ⟨1, _⟩ => rfl

/-! ## Region 0: from the blocks to the array -/

/-- The four index maps over the 8×8 grid: at every point the feature window sits on the output block's row of
    blocks, the two bank windows on its column of blocks, all three at feature block 0; the output's block indices
    stay below 8. -/
theorem block_indices0 : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (1 : Fin 2) ∧ win0_2.index t (1 : Fin 2) = 0
    ∧ win0_3.index t (0 : Fin 2) ≤ 7 ∧ win0_3.index t (1 : Fin 2) ≤ 7 :=
  (by decide +kernel : ∀ t : Fin grid0.N, _)

/-- Every one of the 8×8 output blocks is some point's. -/
theorem block_onto0 : ∀ (q0 q1 : Fin 8), ∃ t : Fin cfg0.N, win0_3.index t = ![q0.val, q1.val] :=
  (by decide +kernel : ∀ (q0 q1 : Fin 8), ∃ t : Fin grid0.N, win0_3.index t = ![q0.val, q1.val])

/-- The feature block at point `t`, entry (p, k), is the feature array at row (block row)·256 + p, feature k. -/
theorem features_at0 (c : Dev nD) (t : Fin cfg0.N) (p : Fin 256) (k : Fin 3072) (b : Fin 2048)
    (hb : b.val = win0_3.index t (0 : Fin 2) * 256 + p.val) :
    iblk0 V c 0 t (ix2 p k) = V c main_arg0 (ix2 b k) := by
  obtain ⟨e0, e1, -⟩ := block_indices0 t
  unfold iblk0
  rw [View.read_apply]
  have h : ((cfg0.win 0).blk t).view.emb (ix2 p k) = ix2 b k := by
    funext a; apply Fin.ext
    match a with
    | ⟨0, _⟩ => show win0_0.index t (0 : Fin 2) * 256 + 1 * p.val = b.val; omega
    | ⟨1, _⟩ => show win0_0.index t (1 : Fin 2) * 3072 + 1 * k.val = k.val; omega
  rw [h]; rfl

/-- The first bank's block at point `t`, entry (q, k), is that bank at clause (block column)·256 + q, feature k. -/
theorem bank_at0 (c : Dev nD) (t : Fin cfg0.N) (q : Fin 256) (k : Fin 3072) (h : Fin 2048)
    (hh : h.val = win0_3.index t (1 : Fin 2) * 256 + q.val) :
    iblk0 V c 1 t (ix2 q k) = V c main_arg1 (ix2 h k) := by
  obtain ⟨-, -, e2, e3, -⟩ := block_indices0 t
  unfold iblk0
  rw [View.read_apply]
  have e : ((cfg0.win 1).blk t).view.emb (ix2 q k) = ix2 h k := by
    funext a; apply Fin.ext
    match a with
    | ⟨0, _⟩ => show win0_1.index t (0 : Fin 2) * 256 + 1 * q.val = h.val; omega
    | ⟨1, _⟩ => show win0_1.index t (1 : Fin 2) * 3072 + 1 * k.val = k.val; omega
  rw [e]; rfl

/-- The second bank's block at point `t`, entry (q, k), is that bank at clause (block column)·256 + q, feature k. -/
theorem inverse_bank_at0 (c : Dev nD) (t : Fin cfg0.N) (q : Fin 256) (k : Fin 3072) (h : Fin 2048)
    (hh : h.val = win0_3.index t (1 : Fin 2) * 256 + q.val) :
    iblk0 V c 2 t (ix2 q k) = V c main_arg3 (ix2 h k) := by
  obtain ⟨-, -, -, -, e4, e5, -⟩ := block_indices0 t
  unfold iblk0
  rw [View.read_apply]
  have e : ((cfg0.win 2).blk t).view.emb (ix2 q k) = ix2 h k := by
    funext a; apply Fin.ext
    match a with
    | ⟨0, _⟩ => show win0_2.index t (0 : Fin 2) * 256 + 1 * q.val = h.val; omega
    | ⟨1, _⟩ => show win0_2.index t (1 : Fin 2) * 3072 + 1 * k.val = k.val; omega
  rw [e]; rfl

/-- What point `t` writes back is its block of the clause outputs of the three arrays as the region finds them. -/
theorem written_back0 (c : Dev nD) (t : Fin cfg0.N) :
    (dat0 V c).flushed 3 t = ((cfg0.win 3).blk t).view.read (Elt Ideal)
      (Cert.Spec.clauseHalf (V c main_arg0) (V c main_arg1) (V c main_arg3)) := by
  show (cfg0.win 3).cut (grid0.coords t) ((dat0 V c).after 3 t) = _
  rw [after0_3]
  unfold out0_3
  rw [View.canon_unit_zero zero_offsets]
  simp only [View.ld_unit_zero (S := S256x3072) zero_offsets]
  obtain ⟨-, -, -, -, -, -, e6, e7⟩ := block_indices0 t
  funext j
  have hj0 : (j 0).val < 256 := (j 0).isLt
  have hj1 : (j 1).val < 256 := (j 1).isLt
  have eL : (cfg0.win 3).xinj (grid0.coords t) j = ix2 (⟨(j 0).val, hj0⟩ : Fin 256) (⟨(j 1).val, hj1⟩ : Fin 256) :=
    funext fun a => match a with | ⟨0, _⟩ => rfl | ⟨1, _⟩ => rfl
  have hB : win0_3.index t (0 : Fin 2) * 256 + (j 0).val < 2048 := by omega
  have hH : win0_3.index t (1 : Fin 2) * 256 + (j 1).val < 2048 := by omega
  have eR : ((cfg0.win 3).blk t).view.emb j
      = ix2 (⟨win0_3.index t (0 : Fin 2) * 256 + (j 0).val, hB⟩ : Fin 2048) (⟨win0_3.index t (1 : Fin 2) * 256 + (j 1).val, hH⟩ : Fin 2048) := by
    funext a; apply Fin.ext
    match a with
    | ⟨0, _⟩ => show win0_3.index t (0 : Fin 2) * 256 + 1 * (j 0).val = win0_3.index t (0 : Fin 2) * 256 + (j 0).val; omega
    | ⟨1, _⟩ => show win0_3.index t (1 : Fin 2) * 256 + 1 * (j 1).val = win0_3.index t (1 : Fin 2) * 256 + (j 1).val; omega
  show k0_pay1 _ _ _ ((cfg0.win 3).xinj (grid0.coords t) j) = Cert.Spec.clauseHalf _ _ _ (((cfg0.win 3).blk t).view.emb j)
  rw [eL, payload_at, eR, Cert.Spec.clauseHalf_ix2]
  unfold Cert.Spec.dotHalf
  refine congrArg Cert.Spec.fuzz (congrArg₂ (· + ·) (Finset.sum_congr rfl fun k _ => ?_) (Finset.sum_congr rfl fun k _ => ?_))
  · rw [features_at0 V c t ⟨(j 0).val, hj0⟩ k ⟨_, hB⟩ rfl, bank_at0 V c t ⟨(j 1).val, hj1⟩ k ⟨_, hH⟩ rfl]
  · rw [features_at0 V c t ⟨(j 0).val, hj0⟩ k ⟨_, hB⟩ rfl, inverse_bank_at0 V c t ⟨(j 1).val, hj1⟩ k ⟨_, hH⟩ rfl]

/-- An index of the 2048×2048 array is in point `t`'s block iff each coordinate is in the block's range on its axis. -/
theorem mem_block0 (t : Fin cfg0.N) (i : S2048x2048.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v0).slice (win0_3.rect t)).set ↔ _
  rw [View.set_slice_whole, Rect.mem_set_unit]
  exact Iff.rfl

/-- Every index (b, h) of the array lies in the block of the point with block row b / 256 and block column h / 256. -/
theorem covered0 (i : S2048x2048.Idx) :
    ∃ t : Fin cfg0.N, (cfg0.win 3).flush t = true ∧ i ∈ ((cfg0.win 3).blk t).view.set := by
  have hi0 : (i 0).val < 2048 := (i 0).isLt
  have hi1 : (i 1).val < 2048 := (i 1).isLt
  obtain ⟨t, ht⟩ := block_onto0 ⟨(i 0).val / 256, by omega⟩ ⟨(i 1).val / 256, by omega⟩
  have q0 : win0_3.index t (0 : Fin 2) = (i 0).val / 256 := congrFun ht 0
  have q1 : win0_3.index t (1 : Fin 2) = (i 1).val / 256 := congrFun ht 1
  refine ⟨t, flush0_3 t, ?_⟩
  rw [mem_block0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 256 ≤ (i 1).val ∧ (i 1).val < win0_3.index t (1 : Fin 2) * 256 + 256; omega

theorem arr0 (c : Dev nD) :
    (dat0 V c).arrAt 3 cfg0.N = Cert.Spec.clauseHalf (V c main_arg0) (V c main_arg1) (V c main_arg3) :=
  (dat0 V c).arrAt_eq_of_cover 3 _ (fun t _ => written_back0 V c t) covered0

/-! ## Region 1: from the blocks to the array -/

/-- The four index maps over the 8×8 grid: at every point the feature window sits on the output block's row of
    blocks, the two bank windows on its column of blocks, all three at feature block 0; the output's block indices
    stay below 8. -/
theorem block_indices1 : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = win1_3.index t (1 : Fin 2) ∧ win1_2.index t (1 : Fin 2) = 0
    ∧ win1_3.index t (0 : Fin 2) ≤ 7 ∧ win1_3.index t (1 : Fin 2) ≤ 7 :=
  (by decide +kernel : ∀ t : Fin grid1.N, _)

/-- Every one of the 8×8 output blocks is some point's. -/
theorem block_onto1 : ∀ (q0 q1 : Fin 8), ∃ t : Fin cfg1.N, win1_3.index t = ![q0.val, q1.val] :=
  (by decide +kernel : ∀ (q0 q1 : Fin 8), ∃ t : Fin grid1.N, win1_3.index t = ![q0.val, q1.val])

/-- The feature block at point `t`, entry (p, k), is the feature array at row (block row)·256 + p, feature k. -/
theorem features_at1 (c : Dev nD) (t : Fin cfg1.N) (p : Fin 256) (k : Fin 3072) (b : Fin 2048)
    (hb : b.val = win1_3.index t (0 : Fin 2) * 256 + p.val) :
    iblk1 V c 0 t (ix2 p k) = V c main_arg0 (ix2 b k) := by
  obtain ⟨e0, e1, -⟩ := block_indices1 t
  unfold iblk1
  rw [View.read_apply]
  have h : ((cfg1.win 0).blk t).view.emb (ix2 p k) = ix2 b k := by
    funext a; apply Fin.ext
    match a with
    | ⟨0, _⟩ => show win1_0.index t (0 : Fin 2) * 256 + 1 * p.val = b.val; omega
    | ⟨1, _⟩ => show win1_0.index t (1 : Fin 2) * 3072 + 1 * k.val = k.val; omega
  rw [h]; rfl

/-- The first bank's block at point `t`, entry (q, k), is that bank at clause (block column)·256 + q, feature k. -/
theorem bank_at1 (c : Dev nD) (t : Fin cfg1.N) (q : Fin 256) (k : Fin 3072) (h : Fin 2048)
    (hh : h.val = win1_3.index t (1 : Fin 2) * 256 + q.val) :
    iblk1 V c 1 t (ix2 q k) = V c main_arg2 (ix2 h k) := by
  obtain ⟨-, -, e2, e3, -⟩ := block_indices1 t
  unfold iblk1
  rw [View.read_apply]
  have e : ((cfg1.win 1).blk t).view.emb (ix2 q k) = ix2 h k := by
    funext a; apply Fin.ext
    match a with
    | ⟨0, _⟩ => show win1_1.index t (0 : Fin 2) * 256 + 1 * q.val = h.val; omega
    | ⟨1, _⟩ => show win1_1.index t (1 : Fin 2) * 3072 + 1 * k.val = k.val; omega
  rw [e]; rfl

/-- The second bank's block at point `t`, entry (q, k), is that bank at clause (block column)·256 + q, feature k. -/
theorem inverse_bank_at1 (c : Dev nD) (t : Fin cfg1.N) (q : Fin 256) (k : Fin 3072) (h : Fin 2048)
    (hh : h.val = win1_3.index t (1 : Fin 2) * 256 + q.val) :
    iblk1 V c 2 t (ix2 q k) = V c main_arg4 (ix2 h k) := by
  obtain ⟨-, -, -, -, e4, e5, -⟩ := block_indices1 t
  unfold iblk1
  rw [View.read_apply]
  have e : ((cfg1.win 2).blk t).view.emb (ix2 q k) = ix2 h k := by
    funext a; apply Fin.ext
    match a with
    | ⟨0, _⟩ => show win1_2.index t (0 : Fin 2) * 256 + 1 * q.val = h.val; omega
    | ⟨1, _⟩ => show win1_2.index t (1 : Fin 2) * 3072 + 1 * k.val = k.val; omega
  rw [e]; rfl

/-- What point `t` writes back is its block of the clause outputs of the three arrays as the region finds them. -/
theorem written_back1 (c : Dev nD) (t : Fin cfg1.N) :
    (dat1 V c).flushed 3 t = ((cfg1.win 3).blk t).view.read (Elt Ideal)
      (Cert.Spec.clauseHalf (V c main_arg0) (V c main_arg2) (V c main_arg4)) := by
  show (cfg1.win 3).cut (grid1.coords t) ((dat1 V c).after 3 t) = _
  rw [after1_3]
  unfold out1_3
  rw [View.canon_unit_zero zero_offsets]
  simp only [View.ld_unit_zero (S := S256x3072) zero_offsets]
  obtain ⟨-, -, -, -, -, -, e6, e7⟩ := block_indices1 t
  funext j
  have hj0 : (j 0).val < 256 := (j 0).isLt
  have hj1 : (j 1).val < 256 := (j 1).isLt
  have eL : (cfg1.win 3).xinj (grid1.coords t) j = ix2 (⟨(j 0).val, hj0⟩ : Fin 256) (⟨(j 1).val, hj1⟩ : Fin 256) :=
    funext fun a => match a with | ⟨0, _⟩ => rfl | ⟨1, _⟩ => rfl
  have hB : win1_3.index t (0 : Fin 2) * 256 + (j 0).val < 2048 := by omega
  have hH : win1_3.index t (1 : Fin 2) * 256 + (j 1).val < 2048 := by omega
  have eR : ((cfg1.win 3).blk t).view.emb j
      = ix2 (⟨win1_3.index t (0 : Fin 2) * 256 + (j 0).val, hB⟩ : Fin 2048) (⟨win1_3.index t (1 : Fin 2) * 256 + (j 1).val, hH⟩ : Fin 2048) := by
    funext a; apply Fin.ext
    match a with
    | ⟨0, _⟩ => show win1_3.index t (0 : Fin 2) * 256 + 1 * (j 0).val = win1_3.index t (0 : Fin 2) * 256 + (j 0).val; omega
    | ⟨1, _⟩ => show win1_3.index t (1 : Fin 2) * 256 + 1 * (j 1).val = win1_3.index t (1 : Fin 2) * 256 + (j 1).val; omega
  show k1_pay1 _ _ _ ((cfg1.win 3).xinj (grid1.coords t) j) = Cert.Spec.clauseHalf _ _ _ (((cfg1.win 3).blk t).view.emb j)
  rw [eL, show k1_pay1 = k0_pay1 from rfl, payload_at, eR, Cert.Spec.clauseHalf_ix2]
  unfold Cert.Spec.dotHalf
  refine congrArg Cert.Spec.fuzz (congrArg₂ (· + ·) (Finset.sum_congr rfl fun k _ => ?_) (Finset.sum_congr rfl fun k _ => ?_))
  · rw [features_at1 V c t ⟨(j 0).val, hj0⟩ k ⟨_, hB⟩ rfl, bank_at1 V c t ⟨(j 1).val, hj1⟩ k ⟨_, hH⟩ rfl]
  · rw [features_at1 V c t ⟨(j 0).val, hj0⟩ k ⟨_, hB⟩ rfl, inverse_bank_at1 V c t ⟨(j 1).val, hj1⟩ k ⟨_, hH⟩ rfl]

/-- An index of the 2048×2048 array is in point `t`'s block iff each coordinate is in the block's range on its axis. -/
theorem mem_block1 (t : Fin cfg1.N) (i : S2048x2048.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v1).slice (win1_3.rect t)).set ↔ _
  rw [View.set_slice_whole, Rect.mem_set_unit]
  exact Iff.rfl

/-- Every index (b, h) of the array lies in the block of the point with block row b / 256 and block column h / 256. -/
theorem covered1 (i : S2048x2048.Idx) :
    ∃ t : Fin cfg1.N, (cfg1.win 3).flush t = true ∧ i ∈ ((cfg1.win 3).blk t).view.set := by
  have hi0 : (i 0).val < 2048 := (i 0).isLt
  have hi1 : (i 1).val < 2048 := (i 1).isLt
  obtain ⟨t, ht⟩ := block_onto1 ⟨(i 0).val / 256, by omega⟩ ⟨(i 1).val / 256, by omega⟩
  have q0 : win1_3.index t (0 : Fin 2) = (i 0).val / 256 := congrFun ht 0
  have q1 : win1_3.index t (1 : Fin 2) = (i 1).val / 256 := congrFun ht 1
  refine ⟨t, flush1_3 t, ?_⟩
  rw [mem_block1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 256 ≤ (i 1).val ∧ (i 1).val < win1_3.index t (1 : Fin 2) * 256 + 256; omega

theorem arr1 (c : Dev nD) :
    (dat1 V c).arrAt 3 cfg1.N = Cert.Spec.clauseHalf (V c main_arg0) (V c main_arg2) (V c main_arg4) :=
  (dat1 V c).arrAt_eq_of_cover 3 _ (fun t _ => written_back1 V c t) covered1

end Cert.KernelIdeal.ClauseValue

end
-- ==== Proof.LogitsRegion.lean ====
/-
  The class-logit stage, from its blocks to its array.

  The stage walks eight grid points. At point `t` it holds rows `256 t … 256 t + 255` of the 2048×4096 clause-output
  array, the whole 1×4096 bias row and the whole 4096×100 vote matrix, and it writes rows `256 t … 256 t + 255` of the
  2048×100 result. What it writes at row `r`, column `k` of that block is
      Σ_c (clause[256 t + r, c] + bias[c]) · vote[c, k] :
  the bias row is spread over the 256 rows and added, the narrowing of both factors to a shorter float format changes
  nothing over the extended reals, and the matrix product into a zero accumulator is the plain sum over the 4096 inner
  positions (the zero word is the real 0). That is entry `(256 t + r, k)` of the specification's `logits` of the three
  arrays. Row `b` of the result lies in the block of point `b / 256`, so the eight blocks cover the array and the array
  after the stage is `logits` of the clause outputs, the bias read as a row, and the votes.
-/
import proofs.«141273_j30227979829789_1_alg».proof.Proof.Gen.KernelIdeal.Frame
import proofs.«141273_j30227979829789_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.LogitsValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The two zero offsets of a whole-buffer access, as the constant function. -/
theorem zero_offsets : (![0, 0] : Fin 2 → Nat) = fun _ => 0 := funext fun a => by fin_cases a <;> rfl

/-! ## The product of a 256×4096 by a 4096×100 matrix, entry by entry -/

/-- The left operand's row coordinate is the result's row. -/
theorem lhs_axis0 (i : S256x100.Idx) (q : dot_S256x4096_S4096x100_S256x100_1_0_0_1_n_n.contr.Idx) :
    (dot_S256x4096_S4096x100_S256x100_1_0_0_1_n_n.lhsIdx i q 0).val = (i 0).val := by
  unfold DotDims.lhsIdx
  rw [dif_neg (show ¬(0 : Fin S256x4096.rank) ∈ dot_S256x4096_S4096x100_S256x100_1_0_0_1_n_n.lhsBatch by decide), dif_pos (show (0 : Fin S256x4096.rank) ∈ dot_S256x4096_S4096x100_S256x100_1_0_0_1_n_n.lhsNonContracting by decide)]
  rfl
/-- The left operand's column coordinate is the summation index. -/
theorem lhs_axis1 (i : S256x100.Idx) (q : dot_S256x4096_S4096x100_S256x100_1_0_0_1_n_n.contr.Idx) :
    (dot_S256x4096_S4096x100_S256x100_1_0_0_1_n_n.lhsIdx i q 1).val = (q ⟨0, by decide⟩).val :=
  dot_S256x4096_S4096x100_S256x100_1_0_0_1_n_n.lhsIdx_val_of_single rfl i q
/-- The right operand's row coordinate is the summation index. -/
theorem rhs_axis0 (i : S256x100.Idx) (q : dot_S256x4096_S4096x100_S256x100_1_0_0_1_n_n.contr.Idx) :
    (dot_S256x4096_S4096x100_S256x100_1_0_0_1_n_n.rhsIdx i q 0).val = (q ⟨0, by decide⟩).val :=
  dot_S256x4096_S4096x100_S256x100_1_0_0_1_n_n.rhsIdx_val_of_single rfl i q
/-- The right operand's column coordinate is the result's column. -/
theorem rhs_axis1 (i : S256x100.Idx) (q : dot_S256x4096_S4096x100_S256x100_1_0_0_1_n_n.contr.Idx) :
    (dot_S256x4096_S4096x100_S256x100_1_0_0_1_n_n.rhsIdx i q 1).val = (i 1).val := by
  unfold DotDims.rhsIdx
  rw [dif_neg (show ¬(1 : Fin S4096x100.rank) ∈ dot_S256x4096_S4096x100_S256x100_1_0_0_1_n_n.rhsBatch by decide), dif_pos (show (1 : Fin S4096x100.rank) ∈ dot_S256x4096_S4096x100_S256x100_1_0_0_1_n_n.rhsNonContracting by decide)]
  rfl

/-- The matrix product into a zero accumulator, at row `r` and column `k`: the sum over the 4096 inner positions of the
    left row's entry times the right column's entry. -/
theorem product_at {φ₁ φ₂ : FTy} (y0 : FVec Ideal S256x4096 φ₁) (y1 : FVec Ideal S4096x100 φ₂) (r : Fin 256) (k : Fin 100) :
    matmul dot_S256x4096_S4096x100_S256x100_1_0_0_1_n_n none y0 y1 (constant (F := Ideal) S256x100 .f32 0x00000000#32) (ix2 r k)
      = ∑ c : Fin 4096, y0 (ix2 r c) * y1 (ix2 c k) := by
  simp only [matmul]
  rw [Ideal.matmul_constant_zero_apply, ← Equiv.sum_comp (contrEquiv1 dot_S256x4096_S4096x100_S256x100_1_0_0_1_n_n 4096 rfl rfl).symm]
  refine Finset.sum_congr rfl fun c _ => ?_
  have hc := contrEquiv1_symm_val dot_S256x4096_S4096x100_S256x100_1_0_0_1_n_n 4096 rfl rfl c
  have el : dot_S256x4096_S4096x100_S256x100_1_0_0_1_n_n.lhsIdx (ix2 r k) ((contrEquiv1 dot_S256x4096_S4096x100_S256x100_1_0_0_1_n_n 4096 rfl rfl).symm c) = ix2 r c := funext fun a => Fin.ext (by
    match a with
    | ⟨0, _⟩ => exact lhs_axis0 _ _
    | ⟨1, _⟩ => exact (lhs_axis1 _ _).trans hc)
  have er : dot_S256x4096_S4096x100_S256x100_1_0_0_1_n_n.rhsIdx (ix2 r k) ((contrEquiv1 dot_S256x4096_S4096x100_S256x100_1_0_0_1_n_n 4096 rfl rfl).symm c) = ix2 c k := funext fun a => Fin.ext (by
    match a with
    | ⟨0, _⟩ => exact (rhs_axis0 _ _).trans hc
    | ⟨1, _⟩ => exact rhs_axis1 _ _)
  rw [el, er]

/-! ## The body's value at an entry -/

/-- What the body stores at row `r`, column `k` of its 256×100 block, from the three blocks it loads: the bias row is
    added to every row of the clause block, and the sum goes against the vote matrix. -/
theorem payload_at (x0 : Vec Ideal S256x4096 .f32) (x1 : Vec Ideal S1x4096 .f32) (x2 : Vec Ideal S4096x100 .f32)
    (r : Fin 256) (k : Fin 100) :
    k2_pay1 x0 x1 x2 (ix2 r k) = ∑ c : Fin 4096, (x0 (ix2 r c) + x1 (ix2 (0 : Fin 1) c)) * x2 (ix2 c k) := by
  unfold k2_pay1
  refine (product_at _ _ r k).trans ?_
  refine Finset.sum_congr rfl fun c _ => ?_
  rw [truncf_apply, truncf_apply, addf_apply, shapeCast_self, shapeCast_self, broadcastTo_1b_ab_apply]

/-! ## From the blocks to the array -/

/-- The block indices over the eight grid points: the clause window and the output window sit at block row `t`, block
    column 0; the bias and vote windows sit at block (0, 0) at every point. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point `t` writes back is block `t` of the class logits of the three arrays as the region finds them. -/
theorem flushed_eq (c : Dev nD) (t : Fin cfg2.N) :
    (dat2 V c).flushed 3 t = ((cfg2.win 3).blk t).view.read (Elt Ideal)
      (Cert.Spec.logits (V c main_v2) (fun i => V c main_v3 (ix2 (0 : Fin 1) (i 0))) (V c main_arg6)) := by
  show (cfg2.win 3).cut (grid2.coords t) ((dat2 V c).after 3 t) = _
  rw [after2_3]
  unfold out2_3
  rw [View.canon_unit_zero zero_offsets]
  simp only [View.ld_unit_zero (S := S256x4096) zero_offsets, View.ld_unit_zero (S := S1x4096) zero_offsets,
    View.ld_unit_zero (S := S4096x100) zero_offsets]
  obtain ⟨e00, e01, e10, e11, e20, e21, e30, e31⟩ := block_indices t
  funext j
  obtain ⟨r, k, rfl⟩ : ∃ (r : Fin 256) (k : Fin 100), j = ix2 r k := ⟨j 0, j 1, eq_ix2 j⟩
  have ht : t.val < 8 := by have h : t.val < cfg2.N := t.isLt; have hN : cfg2.N = 8 := N_2; omega
  have hr : r.val < 256 := r.isLt
  show k2_pay1 (iblk2 V c 0 t) (iblk2 V c 1 t) (iblk2 V c 2 t) (ix2 r k)
    = Cert.Spec.logits (V c main_v2) (fun i => V c main_v3 (ix2 (0 : Fin 1) (i 0))) (V c main_arg6)
        (((cfg2.win 3).blk t).view.emb (ix2 r k))
  have hb : ((cfg2.win 3).blk t).view.emb (ix2 r k) = ix2 (⟨t.val * 256 + r.val, by omega⟩ : Fin 2048) k := by
    funext a; apply Fin.ext
    match a with
    | ⟨0, _⟩ => show win2_3.index t (0 : Fin 2) * 256 + 1 * r.val = t.val * 256 + r.val; rw [e30]; omega
    | ⟨1, _⟩ => show win2_3.index t (1 : Fin 2) * 100 + 1 * k.val = k.val; rw [e31]; omega
  rw [hb, Cert.Spec.logits_ix2, payload_at]
  refine Finset.sum_congr rfl fun q _ => ?_
  have h0 : iblk2 V c 0 t (ix2 r q) = V c main_v2 (ix2 (⟨t.val * 256 + r.val, by omega⟩ : Fin 2048) q) := by
    show V c main_v2 (((cfg2.win 0).blk t).view.emb (ix2 r q)) = _
    refine congrArg _ (funext fun a => Fin.ext ?_)
    match a with
    | ⟨0, _⟩ => show win2_0.index t (0 : Fin 2) * 256 + 1 * r.val = t.val * 256 + r.val; rw [e00]; omega
    | ⟨1, _⟩ => show win2_0.index t (1 : Fin 2) * 4096 + 1 * q.val = q.val; rw [e01]; omega
  have h1 : iblk2 V c 1 t (ix2 (0 : Fin 1) q) = V c main_v3 (ix2 (0 : Fin 1) q) := by
    show V c main_v3 (((cfg2.win 1).blk t).view.emb (ix2 (0 : Fin 1) q)) = _
    refine congrArg _ (funext fun a => Fin.ext ?_)
    match a with
    | ⟨0, _⟩ => show win2_1.index t (0 : Fin 2) * 1 + 1 * 0 = 0; rw [e10]
    | ⟨1, _⟩ => show win2_1.index t (1 : Fin 2) * 4096 + 1 * q.val = q.val; rw [e11]; omega
  have h2 : iblk2 V c 2 t (ix2 q k) = V c main_arg6 (ix2 q k) := by
    show V c main_arg6 (((cfg2.win 2).blk t).view.emb (ix2 q k)) = _
    refine congrArg _ (funext fun a => Fin.ext ?_)
    match a with
    | ⟨0, _⟩ => show win2_2.index t (0 : Fin 2) * 4096 + 1 * q.val = q.val; rw [e20]; omega
    | ⟨1, _⟩ => show win2_2.index t (1 : Fin 2) * 100 + 1 * k.val = k.val; rw [e21]; omega
  rw [h0, h1, h2]

/-- An index of the 2048×100 array lies in point `t`'s block iff each coordinate is in the block's range on its axis. -/
theorem mem_block (t : Fin cfg2.N) (i : S2048x100.Idx) :
    i ∈ ((cfg2.win 3).blk t).view.set ↔ ∀ a : Fin 2, win2_3.index t a * S256x100.size a ≤ (i a).val ∧ (i a).val < win2_3.index t a * S256x100.size a + S256x100.size a := by
  show i ∈ ((View.whole main_v4).slice (win2_3.rect t)).set ↔ _
  rw [View.set_slice_whole, Rect.mem_set_unit]
  exact Iff.rfl

/-- Every index of the array is in the block of the point whose number is its row divided by 256. -/
theorem covered (i : S2048x100.Idx) :
    ∃ t : Fin cfg2.N, (cfg2.win 3).flush t = true ∧ i ∈ ((cfg2.win 3).blk t).view.set := by
  have hi0 : (i 0).val < 2048 := (i 0).isLt
  have hi1 : (i 1).val < 100 := (i 1).isLt
  have hN : cfg2.N = 8 := N_2
  refine ⟨⟨(i 0).val / 256, by rw [hN]; omega⟩, flush2_3 _, ?_⟩
  rw [mem_block]
  obtain ⟨-, -, -, -, -, -, e30, e31⟩ := block_indices ⟨(i 0).val / 256, by rw [hN]; omega⟩
  intro a
  match a with
  | ⟨0, _⟩ =>
    show win2_3.index _ (0 : Fin 2) * 256 ≤ (i 0).val ∧ (i 0).val < win2_3.index _ (0 : Fin 2) * 256 + 256
    rw [e30]; show (i 0).val / 256 * 256 ≤ (i 0).val ∧ (i 0).val < (i 0).val / 256 * 256 + 256; omega
  | ⟨1, _⟩ =>
    show win2_3.index _ (1 : Fin 2) * 100 ≤ (i 1).val ∧ (i 1).val < win2_3.index _ (1 : Fin 2) * 100 + 100
    rw [e31]; omega

theorem arr2 (c : Dev nD) :
    (dat2 V c).arrAt 3 cfg2.N
      = Cert.Spec.logits (V c main_v2) (fun i => V c main_v3 (ix2 (0 : Fin 1) (i 0))) (V c main_arg6) :=
  (dat2 V c).arrAt_eq_of_cover 3 _ (fun t _ => flushed_eq V c t) covered

end Cert.KernelIdeal.LogitsValue

end
-- ==== Proof.KernelValue.lean ====
/-
  The idealized kernel's two results as functions of its seven arguments.

  The program runs the positive clause call, the negative clause call, joins their two 2048×2048 outputs side by
  side into the 2048×4096 clause array, reshapes the bias to one row, and runs the logits call. Reading the buffer
  contents boundary by boundary: the first call leaves `clauseHalf x pos pos_inv`, the second `clauseHalf x neg
  neg_inv` (its inputs are still the launch arrays: no earlier step wrote them), the join of the two is `clauses`
  (a column below 2048 comes from the first piece, the others from the second, 2048 columns further left), and the
  logits call leaves `logits` of that array, the bias read as a row, and the votes.
-/
import proofs.«141273_j30227979829789_1_alg».proof.Proof.NamedRun
import proofs.«141273_j30227979829789_1_alg».proof.Proof.ClauseRegion
import proofs.«141273_j30227979829789_1_alg».proof.Proof.LogitsRegion
import proofs.«141273_j30227979829789_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.ShloMosaic.ValueIdx Idealize.SL.Sem
open Cert.Spec (Mat Row clauseHalf clauses logits)

/-! ## Two halves side by side are all the clauses -/

/-- Joining the positive and the negative half along the columns gives the 4096 clause outputs. -/
theorem join_halves (A B : Mat 2048 2048) (x pp pn ppi pni : Mat 2048 3072)
    (hA : A = clauseHalf x pp ppi) (hB : B = clauseHalf x pn pni) :
    concatenate S2048x4096 1 [⟨S2048x2048, A⟩, ⟨S2048x2048, B⟩] concatenates_S2048x2048_S2048x2048_S2048x4096_d1
      = clauses x pp pn ppi pni := by
  subst hA hB
  funext i
  have h4 : (i 1).val < 4096 := (i 1).isLt
  unfold Cert.Spec.clauses
  by_cases h : (i 1).val < 2048
  · rw [dif_pos h]
    exact concatenate_pair_apply_left (t := S2048x4096) (s₁ := S2048x2048) (s₂ := S2048x2048) (1 : Fin S2048x4096.rank) _ _ _ i rfl
      (ix2 (i 0) (⟨(i 1).val, h⟩ : Fin 2048) : S2048x2048.Idx)
      (fun b => match b with | ⟨0, _⟩ => rfl | ⟨1, _⟩ => rfl)
  · rw [dif_neg h]
    exact concatenate_pair_apply_right (t := S2048x4096) (s₁ := S2048x2048) (s₂ := S2048x2048) (1 : Fin S2048x4096.rank) _ _ _ i rfl rfl
      (ix2 (i 0) (⟨(i 1).val - 2048, by omega⟩ : Fin 2048) : S2048x2048.Idx)
      (fun b hb => match b, hb with | ⟨0, _⟩, _ => rfl | ⟨1, _⟩, hb => absurd rfl hb)
      (by show (i 1).val - 2048 + 2048 = (i 1).val; omega)

/-- The bias vector reshaped to one row and read back as a vector is the bias vector. -/
theorem row_of_reshape (b : Row 4096) :
    (fun i : (⟨1, ![4096]⟩ : Shape).Idx => shapeCast S1x4096 b shapeCasts_S4096_S1x4096 (ix2 (0 : Fin 1) (i 0))) = b := by
  funext i
  rw [show shapeCast S1x4096 b shapeCasts_S4096_S1x4096 (ix2 (0 : Fin 1) (i 0)) = b (fun a => (ix2 (0 : Fin 1) (i 0)) a.succ)
    from shapeCast_addUnit_apply ![4096] b shapeCasts_S4096_S1x4096 (ix2 (0 : Fin 1) (i 0))]
  exact congrArg b (funext fun a => match a with | ⟨0, _⟩ => rfl)

/-! ## The buffer contents, boundary by boundary -/

variable (m : (ℓ : Loc nD τ sig) → Buf (Elt Ideal) ℓ) (ρ : Dev nD → PrngReg)

/-- The first clause call's output array. -/
theorem after_region0 (c : Dev nD) :
    W1 m ρ c (Proc.devRef .tc main_v0)
      = clauseHalf (m ((c : Thread nD τ).loc main_arg0)) (m ((c : Thread nD τ).loc main_arg1)) (m ((c : Thread nD τ).loc main_arg3)) :=
  (W1_arr m ρ c 3).trans (ClauseValue.arr0 (V0 m ρ) c)

/-- The second clause call reads the launch arrays: the first call wrote none of them. -/
theorem entry1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem entry1_arg2 (c : Dev nD) : V1 m ρ c main_arg2 = m ((c : Thread nD τ).loc main_arg2) :=
  W1_of_ne m ρ c main_arg2 (by decide)
theorem entry1_arg4 (c : Dev nD) : V1 m ρ c main_arg4 = m ((c : Thread nD τ).loc main_arg4) :=
  W1_of_ne m ρ c main_arg4 (by decide)

/-- The second clause call's output array. -/
theorem after_region1 (c : Dev nD) :
    W2 m ρ c (Proc.devRef .tc main_v1)
      = clauseHalf (m ((c : Thread nD τ).loc main_arg0)) (m ((c : Thread nD τ).loc main_arg2)) (m ((c : Thread nD τ).loc main_arg4)) := by
  refine (W2_arr m ρ c 3).trans ((ClauseValue.arr1 (V1 m ρ) c).trans ?_)
  rw [entry1_arg0, entry1_arg2, entry1_arg4]

/-- The second call leaves the first call's output in place. -/
theorem kept_region1_v0 (c : Dev nD) : W2 m ρ c (Proc.devRef .tc main_v0) = W1 m ρ c (Proc.devRef .tc main_v0) :=
  W2_of_ne m ρ c main_v0 (by decide)

/-- The bias and the votes are still the launch arrays when the host stretch starts. -/
theorem entry_host_arg5 (c : Dev nD) : W2 m ρ c (Proc.devRef .tc main_arg5) = m ((c : Thread nD τ).loc main_arg5) :=
  (W2_of_ne m ρ c main_arg5 (by decide)).trans (W1_of_ne m ρ c main_arg5 (by decide))
theorem entry_host_arg6 (c : Dev nD) : W2 m ρ c (Proc.devRef .tc main_arg6) = m ((c : Thread nD τ).loc main_arg6) :=
  (W2_of_ne m ρ c main_arg6 (by decide)).trans (W1_of_ne m ρ c main_arg6 (by decide))

/-- The host stretch joins the two halves … -/
theorem host_v2 (c : Dev nD) :
    W3 m ρ c (Proc.devRef .tc main_v2)
      = concatenate S2048x4096 1 [⟨S2048x2048, W2 m ρ c (Proc.devRef .tc main_v0)⟩, ⟨S2048x2048, W2 m ρ c (Proc.devRef .tc main_v1)⟩]
          concatenates_S2048x2048_S2048x2048_S2048x4096_d1 := by
  show StableHlo.after hostOps2 (W2 m ρ c) (Proc.devRef .tc main_v2) = _
  after_results

/-- … reshapes the bias … -/
theorem host_v3 (c : Dev nD) :
    W3 m ρ c (Proc.devRef .tc main_v3) = shapeCast S1x4096 (W2 m ρ c (Proc.devRef .tc main_arg5)) shapeCasts_S4096_S1x4096 := by
  show StableHlo.after hostOps2 (W2 m ρ c) (Proc.devRef .tc main_v3) = _
  after_results
  rfl

/-- … and leaves the votes alone. -/
theorem host_arg6 (c : Dev nD) : W3 m ρ c (Proc.devRef .tc main_arg6) = W2 m ρ c (Proc.devRef .tc main_arg6) := by
  show StableHlo.after hostOps2 (W2 m ρ c) (Proc.devRef .tc main_arg6) = _
  after_results

/-- The clause array the logits call is entered with. -/
theorem clause_array (c : Dev nD) :
    W3 m ρ c (Proc.devRef .tc main_v2)
      = clauses (m ((c : Thread nD τ).loc main_arg0)) (m ((c : Thread nD τ).loc main_arg1)) (m ((c : Thread nD τ).loc main_arg2))
          (m ((c : Thread nD τ).loc main_arg3)) (m ((c : Thread nD τ).loc main_arg4)) :=
  (host_v2 m ρ c).trans (join_halves _ _ _ _ _ _ _ ((kept_region1_v0 m ρ c).trans (after_region0 m ρ c)) (after_region1 m ρ c))

/-! ## The two results -/

/-- The clause-output result: the logits call only reads it. -/
theorem result_clauses (c : Dev nD) :
    W4 m ρ c (Proc.devRef .tc main_v2)
      = clauses (m ((c : Thread nD τ).loc main_arg0)) (m ((c : Thread nD τ).loc main_arg1)) (m ((c : Thread nD τ).loc main_arg2))
          (m ((c : Thread nD τ).loc main_arg3)) (m ((c : Thread nD τ).loc main_arg4)) :=
  ((W4_arr m ρ c 0).trans (((dat2 (V3 m ρ) c).arrAt_in 0 rfl _).trans (A_eq2 (V3 m ρ) c 0))).trans (clause_array m ρ c)

/-- The logits result. -/
theorem result_logits (c : Dev nD) :
    W4 m ρ c (Proc.devRef .tc main_v4)
      = logits (clauses (m ((c : Thread nD τ).loc main_arg0)) (m ((c : Thread nD τ).loc main_arg1)) (m ((c : Thread nD τ).loc main_arg2))
          (m ((c : Thread nD τ).loc main_arg3)) (m ((c : Thread nD τ).loc main_arg4)))
        (m ((c : Thread nD τ).loc main_arg5)) (m ((c : Thread nD τ).loc main_arg6)) := by
  refine (W4_arr m ρ c 3).trans ((LogitsValue.arr2 (V3 m ρ) c).trans ?_)
  have e2 : V3 m ρ c main_v2 = _ := clause_array m ρ c
  have e3 : V3 m ρ c main_v3 = _ := (host_v3 m ρ c).trans (by rw [entry_host_arg5])
  have e6 : V3 m ρ c main_arg6 = _ := (host_arg6 m ρ c).trans (entry_host_arg6 m ρ c)
  rw [e2, e3, e6, row_of_reshape]

/-! ## The run -/

/-- Every weakly fair execution of the idealized kernel ends with the logits and the clause outputs at the
    specification's functions of the launch arrays, and with the arguments unchanged. -/
theorem run : θ_run defs (onTc (τ := τ) (main (F := Ideal))) ⟨m, fun _ => 0, ρ⟩ (fun r => ∀ c : Dev nD,
      r.2.mem ((c.tc : Thread nD τ).loc main_v4)
        = logits (clauses (m ((c : Thread nD τ).loc main_arg0)) (m ((c : Thread nD τ).loc main_arg1)) (m ((c : Thread nD τ).loc main_arg2))
            (m ((c : Thread nD τ).loc main_arg3)) (m ((c : Thread nD τ).loc main_arg4)))
          (m ((c : Thread nD τ).loc main_arg5)) (m ((c : Thread nD τ).loc main_arg6))
      ∧ r.2.mem ((c.tc : Thread nD τ).loc main_v2)
        = clauses (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_logits m ρ c), (h c).2.1.trans (result_clauses m ρ c), (h c).2.2⟩)
    (Cert.KernelIdeal.Named.run_named m ρ)

end Cert.KernelIdeal.KernelValue

end
-- ==== Proof.RefValue.lean ====
/-
  The reference program's two results, as functions of the argument arrays over the extended reals, are the
  specification's `clauses` and `logits`.

  The reference lays the negated features beside the features in one matrix of width 6144, X = [1 − x | x], lays the
  four banks of clipped logistics in one matrix of 4096 rows, W = [[g p⁺ | g p⁺inv] ; [g p⁻ | g p⁻inv]], and contracts
  them: (X Wᵀ)[b, c] = Σ_{k < 6144} X[b, k] · W[c, k].
  A sum over 6144 indices is the sum over the first 3072 plus the sum over the last 3072; this uses only that addition
  of extended reals is commutative and associative, so nothing is asked of the summands. On the first half
  X[b, k] = 1 − x[b, k] and W[c, k] = g (p[c', k]); on the second X[b, 3072 + k] = x[b, k] and
  W[c, 3072 + k] = g (pinv[c', k]); here c' = c with the positive banks when c < 2048, and c' = c − 2048 with the
  negative banks otherwise. The two half sums are the specification's `dotHalf`.
  The reference writes the logistic as 1 / (1 + exp (−v)) over the word of 1.0, which is the extended real 1, so its
  clipped value is `gate v`. It negates by −y where the specification writes 0 − y; the word of 0.0 is 0 and
  0 − y = −y on every extended real. The scale, the clip bounds and the 1 of 1 − x stay the printed words.
  The class logits are Σ_c (clause[b, c] + bias[c]) · vote[c, k], the bias laid along every row.
-/
import proofs.«141273_j30227979829789_1_alg».proof.Proof.Gen.ReferenceIdeal.Run
import proofs.«141273_j30227979829789_1_alg».proof.Proof.Gen.ReferenceIdeal.Read
import proofs.«141273_j30227979829789_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx

/-! ## A sum over 6144 terms is the sum of its two halves -/

theorem sum_split (f : Fin 6144 → EReal) :
    ∑ k : Fin 6144, f k
      = (∑ k : Fin 3072, f ⟨k.val, by have := k.isLt; omega⟩)
        + ∑ k : Fin 3072, f ⟨3072 + k.val, by have := k.isLt; omega⟩ :=
  Fin.sum_univ_add (a := 3072) (b := 3072) f

/-! ## The clipped logistic, spelled by the host's operations over the printed words -/

theorem gate_words (v : EReal) :
    FloatOps.minimumf (F := Ideal) (φ := .f32) (FloatOps.ofBits .f32 0x3F800000#32)
      (FloatOps.maximumf (FloatOps.ofBits .f32 0x00000000#32)
        (FloatOps.hostDivf (FloatOps.ofBits .f32 0x3F800000#32)
          (FloatOps.addf (FloatOps.ofBits .f32 0x3F800000#32) (FloatOps.hostUnary .exp (FloatOps.hostNegf v)))))
      = Cert.Spec.gate v := by
  have h1 : Ideal.div (Ideal.ofBits .f32 0x3F800000#32) (Ideal.ofBits .f32 0x3F800000#32 + Ideal.exp (-v)) = Ideal.logistic v := by
    rw [Ideal.ofBits_one_f32]; rfl
  show min (Ideal.ofBits .f32 0x3F800000#32) (max (Ideal.ofBits .f32 0x00000000#32)
    (Ideal.div (Ideal.ofBits .f32 0x3F800000#32) (Ideal.ofBits .f32 0x3F800000#32 + Ideal.exp (-v)))) = _
  rw [h1]; rfl

theorem v6_gate (x : Cert.Spec.Mat 2048 3072) (i : S2048x3072.Idx) :
    val_main_v6 (F := Ideal) x i = Cert.Spec.gate (x i) := by
  rw [val_main_v6_apply, val_main_call0_v4_apply, val_main_call0_v3_apply, val_main_cst_2_apply, val_main_call0_v2_apply, val_main_call0_v1_apply, val_main_call0_v0_apply, val_main_cst_1_apply, val_main_v5_apply, val_main_v4_apply, val_main_cst_0_apply, val_main_v3_apply, val_main_v2_apply, val_main_cst_apply, val_main_v1_apply, val_main_v0_apply]
  exact gate_words (x i)

theorem v13_gate (x : Cert.Spec.Mat 2048 3072) (i : S2048x3072.Idx) :
    val_main_v13 (F := Ideal) x i = Cert.Spec.gate (x i) := by
  rw [val_main_v13_apply, val_main_call1_v4_apply, val_main_call1_v3_apply, val_main_cst_6_apply, val_main_call1_v2_apply, val_main_call1_v1_apply, val_main_call1_v0_apply, val_main_cst_5_apply, val_main_v12_apply, val_main_v11_apply, val_main_cst_4_apply, val_main_v10_apply, val_main_v9_apply, val_main_cst_3_apply, val_main_v8_apply, val_main_v7_apply]
  exact gate_words (x i)

theorem v20_gate (x : Cert.Spec.Mat 2048 3072) (i : S2048x3072.Idx) :
    val_main_v20 (F := Ideal) x i = Cert.Spec.gate (x i) := by
  rw [val_main_v20_apply, val_main_call2_v4_apply, val_main_call2_v3_apply, val_main_cst_10_apply, val_main_call2_v2_apply, val_main_call2_v1_apply, val_main_call2_v0_apply, val_main_cst_9_apply, val_main_v19_apply, val_main_v18_apply, val_main_cst_8_apply, val_main_v17_apply, val_main_v16_apply, val_main_cst_7_apply, val_main_v15_apply, val_main_v14_apply]
  exact gate_words (x i)

theorem v27_gate (x : Cert.Spec.Mat 2048 3072) (i : S2048x3072.Idx) :
    val_main_v27 (F := Ideal) x i = Cert.Spec.gate (x i) := by
  rw [val_main_v27_apply, val_main_call3_v4_apply, val_main_call3_v3_apply, val_main_cst_14_apply, val_main_call3_v2_apply, val_main_call3_v1_apply, val_main_call3_v0_apply, val_main_cst_13_apply, val_main_v26_apply, val_main_v25_apply, val_main_cst_12_apply, val_main_v24_apply, val_main_v23_apply, val_main_cst_11_apply, val_main_v22_apply, val_main_v21_apply]
  exact gate_words (x i)

/-! ## Two pieces joined along an axis, read in either piece -/

theorem cat1_lo (A B : Cert.Spec.Mat 2048 3072) (b : Fin 2048) (k : Fin 3072) :
    concatenate S2048x6144 1 [⟨S2048x3072, A⟩, ⟨S2048x3072, B⟩] concatenates_S2048x3072_S2048x3072_S2048x6144_d1
      (ix2 b ⟨k.val, by have := k.isLt; omega⟩) = A (ix2 b k) :=
  concatenate_pair_apply_left (1 : Fin S2048x6144.rank) A B concatenates_S2048x3072_S2048x3072_S2048x6144_d1 _ rfl (ix2 b k)
    (fun d => match d with | ⟨0, _⟩ => rfl | ⟨1, _⟩ => rfl)

theorem cat1_hi (A B : Cert.Spec.Mat 2048 3072) (b : Fin 2048) (k : Fin 3072) :
    concatenate S2048x6144 1 [⟨S2048x3072, A⟩, ⟨S2048x3072, B⟩] concatenates_S2048x3072_S2048x3072_S2048x6144_d1
      (ix2 b ⟨3072 + k.val, by have := k.isLt; omega⟩) = B (ix2 b k) :=
  concatenate_pair_apply_right (1 : Fin S2048x6144.rank) A B concatenates_S2048x3072_S2048x3072_S2048x6144_d1 _ rfl rfl (ix2 b k)
    (fun d hd => match d, hd with | ⟨0, _⟩, _ => rfl | ⟨1, _⟩, hd => absurd rfl hd)
    (Nat.add_comm _ _)

theorem cat0_lo (A B : Cert.Spec.Mat 2048 6144) (c : Fin 2048) (k : Fin 6144) :
    concatenate S4096x6144 0 [⟨S2048x6144, A⟩, ⟨S2048x6144, B⟩] concatenates_S2048x6144_S2048x6144_S4096x6144_d0
      (ix2 ⟨c.val, by have := c.isLt; omega⟩ k) = A (ix2 c k) :=
  concatenate_pair_apply_left (0 : Fin S4096x6144.rank) A B concatenates_S2048x6144_S2048x6144_S4096x6144_d0 _ rfl (ix2 c k)
    (fun d => match d with | ⟨0, _⟩ => rfl | ⟨1, _⟩ => rfl)

theorem cat0_hi (A B : Cert.Spec.Mat 2048 6144) (c : Fin 2048) (k : Fin 6144) :
    concatenate S4096x6144 0 [⟨S2048x6144, A⟩, ⟨S2048x6144, B⟩] concatenates_S2048x6144_S2048x6144_S4096x6144_d0
      (ix2 ⟨2048 + c.val, by have := c.isLt; omega⟩ k) = B (ix2 c k) :=
  concatenate_pair_apply_right (0 : Fin S4096x6144.rank) A B concatenates_S2048x6144_S2048x6144_S4096x6144_d0 _ rfl rfl (ix2 c k)
    (fun d hd => match d, hd with | ⟨0, _⟩, hd => absurd rfl hd | ⟨1, _⟩, _ => rfl)
    (Nat.add_comm _ _)

/-! ## The two operands of the contraction at coordinates -/

theorem v30_lo (x0 : Cert.Spec.Mat 2048 3072) (b : Fin 2048) (k : Fin 3072) :
    val_main_v30 (F := Ideal) x0 (ix2 b ⟨k.val, by have := k.isLt; omega⟩) = Cert.Spec.one - x0 (ix2 b k) := by
  unfold val_main_v30
  rw [cat1_lo, val_main_v29_apply, val_main_v28_apply, val_main_cst_15_apply]
  rfl

theorem v30_hi (x0 : Cert.Spec.Mat 2048 3072) (b : Fin 2048) (k : Fin 3072) :
    val_main_v30 (F := Ideal) x0 (ix2 b ⟨3072 + k.val, by have := k.isLt; omega⟩) = x0 (ix2 b k) := by
  unfold val_main_v30
  rw [cat1_hi]

theorem v33_lo_lo (x1 x2 x3 x4 : Cert.Spec.Mat 2048 3072) (c : Fin 2048) (k : Fin 3072) :
    val_main_v33 (F := Ideal) x1 x2 x3 x4 (ix2 ⟨c.val, by have := c.isLt; omega⟩ ⟨k.val, by have := k.isLt; omega⟩)
      = Cert.Spec.gate (x1 (ix2 c k)) := by
  unfold val_main_v33
  rw [cat0_lo]
  unfold val_main_v31
  rw [cat1_lo, v6_gate]

theorem v33_lo_hi (x1 x2 x3 x4 : Cert.Spec.Mat 2048 3072) (c : Fin 2048) (k : Fin 3072) :
    val_main_v33 (F := Ideal) x1 x2 x3 x4 (ix2 ⟨c.val, by have := c.isLt; omega⟩ ⟨3072 + k.val, by have := k.isLt; omega⟩)
      = Cert.Spec.gate (x3 (ix2 c k)) := by
  unfold val_main_v33
  rw [cat0_lo]
  unfold val_main_v31
  rw [cat1_hi, v20_gate]

theorem v33_hi_lo (x1 x2 x3 x4 : Cert.Spec.Mat 2048 3072) (c : Fin 2048) (k : Fin 3072) :
    val_main_v33 (F := Ideal) x1 x2 x3 x4 (ix2 ⟨2048 + c.val, by have := c.isLt; omega⟩ ⟨k.val, by have := k.isLt; omega⟩)
      = Cert.Spec.gate (x2 (ix2 c k)) := by
  unfold val_main_v33
  rw [cat0_hi]
  unfold val_main_v32
  rw [cat1_lo, v13_gate]

theorem v33_hi_hi (x1 x2 x3 x4 : Cert.Spec.Mat 2048 3072) (c : Fin 2048) (k : Fin 3072) :
    val_main_v33 (F := Ideal) x1 x2 x3 x4 (ix2 ⟨2048 + c.val, by have := c.isLt; omega⟩ ⟨3072 + k.val, by have := k.isLt; omega⟩)
      = Cert.Spec.gate (x4 (ix2 c k)) := by
  unfold val_main_v33
  rw [cat0_hi]
  unfold val_main_v32
  rw [cat1_hi, v27_gate]

/-! ## The contraction at coordinates, then its two halves -/

theorem lidx35 (b : Fin 2048) (c : Fin 4096) (k : Fin 6144) : lidx_main_v35 (ix2 b c) k = ix2 b k := by
  funext a; match a with | ⟨0, _⟩ => rfl | ⟨1, _⟩ => rfl

theorem ridx35 (b : Fin 2048) (c : Fin 4096) (k : Fin 6144) : idx_main_v34 (ridx_main_v35 (ix2 b c) k) = ix2 c k := by
  funext a; match a with | ⟨0, _⟩ => rfl | ⟨1, _⟩ => rfl

theorem v35_sum (x0 x1 x2 x3 x4 : Cert.Spec.Mat 2048 3072) (b : Fin 2048) (c : Fin 4096) :
    val_main_v35 (F := Ideal) x0 x1 x2 x3 x4 (ix2 b c)
      = ∑ k : Fin 6144, val_main_v30 (F := Ideal) x0 (ix2 b k) * val_main_v33 (F := Ideal) x1 x2 x3 x4 (ix2 c k) := by
  rw [val_main_v35_apply]
  refine Finset.sum_congr rfl fun k _ => ?_
  rw [val_main_v34_apply, lidx35, ridx35]

theorem v35_lo (x0 x1 x2 x3 x4 : Cert.Spec.Mat 2048 3072) (b c : Fin 2048) :
    val_main_v35 (F := Ideal) x0 x1 x2 x3 x4 (ix2 b ⟨c.val, by have := c.isLt; omega⟩)
      = Cert.Spec.dotHalf x0 x1 x3 b c := by
  rw [v35_sum, sum_split]
  unfold Cert.Spec.dotHalf
  congr 1
  · refine Finset.sum_congr rfl fun k _ => ?_
    rw [v30_lo, v33_lo_lo]
  · refine Finset.sum_congr rfl fun k _ => ?_
    rw [v30_hi, v33_lo_hi]

theorem v35_hi (x0 x1 x2 x3 x4 : Cert.Spec.Mat 2048 3072) (b c : Fin 2048) :
    val_main_v35 (F := Ideal) x0 x1 x2 x3 x4 (ix2 b ⟨2048 + c.val, by have := c.isLt; omega⟩)
      = Cert.Spec.dotHalf x0 x2 x4 b c := by
  rw [v35_sum, sum_split]
  unfold Cert.Spec.dotHalf
  congr 1
  · refine Finset.sum_congr rfl fun k _ => ?_
    rw [v30_lo, v33_hi_lo]
  · refine Finset.sum_congr rfl fun k _ => ?_
    rw [v30_hi, v33_hi_hi]

/-! ## From the contraction to the clause output -/

theorem v40_of (x0 x1 x2 x3 x4 : Cert.Spec.Mat 2048 3072) (i : S2048x4096.Idx) (d : EReal)
    (h : val_main_v35 (F := Ideal) x0 x1 x2 x3 x4 i = d) :
    val_main_v40 (F := Ideal) x0 x1 x2 x3 x4 i = Cert.Spec.fuzz d := by
  rw [val_main_v40_apply, val_main_v39_apply, val_main_v38_apply, val_main_call4_v4_apply, val_main_call4_v3_apply,
    val_main_cst_18_apply, val_main_call4_v2_apply, val_main_call4_v1_apply, val_main_call4_v0_apply, val_main_cst_17_apply,
    val_main_v37_apply, val_main_v36_apply, val_main_cst_16_apply, h]
  show Ideal.exp (-(min (Ideal.ofBits .f32 0x41200000#32) (max (Ideal.ofBits .f32 0x00000000#32) (d * Ideal.ofBits .f32 0x3AAAAAAB#32))))
    = Ideal.exp (Ideal.ofBits .f32 0x00000000#32 - min (Ideal.ofBits .f32 0x41200000#32) (max (Ideal.ofBits .f32 0x00000000#32) (d * Ideal.ofBits .f32 0x3AAAAAAB#32)))
  rw [Ideal.ofBits_zero_f32, zero_sub]

theorem clauses_eq (x0 x1 x2 x3 x4 : Cert.Spec.Mat 2048 3072) :
    val_main_v40 (F := Ideal) x0 x1 x2 x3 x4 = Cert.Spec.clauses x0 x1 x2 x3 x4 := by
  funext i
  obtain ⟨b, c, rfl⟩ : ∃ (b : Fin 2048) (c : Fin 4096), i = ix2 b c := ⟨i 0, i 1, eq_ix2 i⟩
  by_cases h : c.val < 2048
  · rw [show Cert.Spec.clauses x0 x1 x2 x3 x4 (ix2 b c) = Cert.Spec.clauseHalf x0 x1 x3 (ix2 b ⟨c.val, h⟩) from dif_pos h,
      Cert.Spec.clauseHalf_ix2]
    exact v40_of x0 x1 x2 x3 x4 _ _ (v35_lo x0 x1 x2 x3 x4 b ⟨c.val, h⟩)
  · have h4 : c.val < 4096 := c.isLt
    have hc : c.val - 2048 < 2048 := by omega
    have e : (⟨2048 + (c.val - 2048), by omega⟩ : Fin 4096) = c := Fin.ext (by show 2048 + (c.val - 2048) = c.val; omega)
    have h35 := v35_hi x0 x1 x2 x3 x4 b ⟨c.val - 2048, hc⟩
    rw [e] at h35
    rw [show Cert.Spec.clauses x0 x1 x2 x3 x4 (ix2 b c) = Cert.Spec.clauseHalf x0 x2 x4 (ix2 b ⟨c.val - 2048, hc⟩) from dif_neg h,
      Cert.Spec.clauseHalf_ix2]
    exact v40_of x0 x1 x2 x3 x4 _ _ h35

/-! ## The class logits -/

theorem lidx44 (b : Fin 2048) (k : Fin 100) (c : Fin 4096) : lidx_main_v44 (ix2 b k) c = ix2 b c := by
  funext a; match a with | ⟨0, _⟩ => rfl | ⟨1, _⟩ => rfl

theorem ridx44 (b : Fin 2048) (k : Fin 100) (c : Fin 4096) : ridx_main_v44 (ix2 b k) c = ix2 c k := by
  funext a; match a with | ⟨0, _⟩ => rfl | ⟨1, _⟩ => rfl

theorem idx4142 (b : Fin 2048) (c : Fin 4096) : idx_main_v41 (idx_main_v42 (ix2 b c)) = ix1 c := by
  funext a; match a with | ⟨0, _⟩ => rfl

theorem logits_eq (x0 x1 x2 x3 x4 : Cert.Spec.Mat 2048 3072) (x5 : Cert.Spec.Row 4096) (x6 : Cert.Spec.Mat 4096 100) :
    val_main_v44 (F := Ideal) x0 x1 x2 x3 x4 x5 x6 = Cert.Spec.logits (Cert.Spec.clauses x0 x1 x2 x3 x4) x5 x6 := by
  funext i
  obtain ⟨b, k, rfl⟩ : ∃ (b : Fin 2048) (k : Fin 100), i = ix2 b k := ⟨i 0, i 1, eq_ix2 i⟩
  rw [val_main_v44_apply, Cert.Spec.logits_ix2]
  refine Finset.sum_congr rfl fun c _ => ?_
  rw [lidx44, ridx44, val_main_v43_apply, val_main_v42_apply, val_main_v41_apply, idx4142, clauses_eq]
  rfl

end Cert.ReferenceIdeal.RefValue

end
-- ==== Proof.lean ====
/-
  The certificate of a two-bank clause layer with class voting, kernel against its jnp reference, over the extended reals.

  Both programs compute, for a batch row `b` and a clause `h` of one bank pair `(p, pinv)`,
      exp (0 − min 10 (max 0 ((Σ_f (1 − x[b,f]) · g(p[h,f]) + Σ_f x[b,f] · g(pinv[h,f])) · s))),   g = min 1 (max 0 logistic),
  the 4096 clause outputs being the positive bank's 2048 followed by the negative bank's, and the class logits
  `Σ_c (clause[b,c] + bias[c]) · voting[c,k]`. The kernel does it in three gridded calls (two clause calls of 8 × 8
  blocks, a join, one logits call of 8 row blocks) with two matrix products per clause block; the reference in one
  product of the row `[1 − x | x]` of width 6144 against the stacked banks `[p | pinv]`. The two agree because a sum
  over 6144 terms is the sum of its first 3072 plus the sum of its last 3072 (addition of extended reals is
  commutative and associative: no finiteness is used), the logistic is the same function on both sides, and a
  change of float format is the identity at the extended reals. Nothing was rewritten by the idealization, so the
  preservation claim is trivial; the three frames are the generated frame certificates and the reference's run.
-/
import proofs.«141273_j30227979829789_1_alg».proof.Defs
import proofs.«141273_j30227979829789_1_alg».proof.Proof.Gen.Kernel
import proofs.«141273_j30227979829789_1_alg».proof.Proof.Gen.Kernel.Frame
import proofs.«141273_j30227979829789_1_alg».proof.Proof.Gen.KernelIdeal
import proofs.«141273_j30227979829789_1_alg».proof.Proof.Gen.KernelIdeal.Frame
import proofs.«141273_j30227979829789_1_alg».proof.Proof.Gen.ReferenceIdeal
import proofs.«141273_j30227979829789_1_alg».proof.Proof.Gen.ReferenceIdeal.Run
import proofs.«141273_j30227979829789_1_alg».proof.Proof.Gen.ReferenceIdeal.Read
import proofs.«141273_j30227979829789_1_alg».proof.Proof.Gen.Pre_finite_inputs
import proofs.«141273_j30227979829789_1_alg».proof.Proof.KernelValue
import proofs.«141273_j30227979829789_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories that agree on the seven arguments both programs end with the logits at `Spec.logits` and the clause
    outputs at `Spec.clauses` of those arguments. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1,
      (hagree c).2.2.2.2.2.2]
    exact (Cert.ReferenceIdeal.Read.val_main_v44_eq _ _ _ _ _ _ _).trans (Cert.ReferenceIdeal.RefValue.logits_eq _ _ _ _ _ _ _)
  · rw [(hagree c).1, (hagree c).2.1, (hagree c).2.2.1, (hagree c).2.2.2.1, (hagree c).2.2.2.2.1]
    exact (Cert.ReferenceIdeal.Read.val_main_v40_eq _ _ _ _ _).trans (Cert.ReferenceIdeal.RefValue.clauses_eq _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
